-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x7168 : Shape := ⟨3, ![8, 2048, 7168]⟩
abbrev S2048x7168 : Shape := ⟨2, ![2048, 7168]⟩
abbrev S7168 : Shape := ⟨1, ![7168]⟩
abbrev S_ : Shape := ⟨0, ![]⟩

class Facts : Prop where
  bcast_S_S8x2048x7168 : S_.BroadcastsInDim S8x2048x7168 (![] : Fin 0 → Fin S8x2048x7168.rank)
  reducesTo_S8x2048x7168_S_d0_1_2 : S8x2048x7168.ReducesTo [0, 1, 2] S_
  h_S_ : 0 < S_.numel
  bcast_S_S2048x7168 : S_.BroadcastsInDim S2048x7168 (![] : Fin 0 → Fin S2048x7168.rank)
  reducesTo_S2048x7168_S_d0_1 : S2048x7168.ReducesTo [0, 1] S_
  bcast_S_S7168 : S_.BroadcastsInDim S7168 (![] : Fin 0 → Fin S7168.rank)
  reducesTo_S7168_S_d0 : S7168.ReducesTo [0] S_

variable [Facts]

def fn {F : FTy → Type} [FloatOps F] (main_arg0 : FVec F S8x2048x7168 .f32) (main_arg1 : FVec F S2048x7168 .f32) (main_arg2 : FVec F S7168 .f32) : IVec S_ 1 :=
  let main_v0 : FVec F S8x2048x7168 .f32 := Host.absf main_arg0
  let main_cst : FVec F S_ .f32 := constant S_ .f32 0x7F800000#32
  let main_v1 : FVec F S8x2048x7168 .f32 := broadcastInDim S8x2048x7168 ![] bcast_S_S8x2048x7168 main_cst
  let main_v2 : IVec S8x2048x7168 1 := cmpf .olt main_v0 main_v1
  let main_c : IVec S_ 1 := constantI S_ 1 1#1
  let main_v3 : IVec S_ 1 := (fun x v => Host.reduce IntOp.andi x v reducesTo_S8x2048x7168_S_d0_1_2 h_S_) main_v2 main_c
  let main_v4 : FVec F S2048x7168 .f32 := Host.absf main_arg1
  let main_cst_0 : FVec F S_ .f32 := constant S_ .f32 0x7F800000#32
  let main_v5 : FVec F S2048x7168 .f32 := broadcastInDim S2048x7168 ![] bcast_S_S2048x7168 main_cst_0
  let main_v6 : IVec S2048x7168 1 := cmpf .olt main_v4 main_v5
  let main_c_1 : IVec S_ 1 := constantI S_ 1 1#1
  let main_v7 : IVec S_ 1 := (fun x v => Host.reduce IntOp.andi x v reducesTo_S2048x7168_S_d0_1 h_S_) main_v6 main_c_1
  let main_v8 : IVec S_ 1 := andi main_v3 main_v7
  let main_v9 : FVec F S7168 .f32 := Host.absf main_arg2
  let main_cst_2 : FVec F S_ .f32 := constant S_ .f32 0x7F800000#32
  let main_v10 : FVec F S7168 .f32 := broadcastInDim S7168 ![] bcast_S_S7168 main_cst_2
  let main_v11 : IVec S7168 1 := cmpf .olt main_v9 main_v10
  let main_c_3 : IVec S_ 1 := constantI S_ 1 1#1
  let main_v12 : IVec S_ 1 := (fun x v => Host.reduce IntOp.andi x v reducesTo_S7168_S_d0 h_S_) main_v11 main_c_3
  let main_v13 : IVec S_ 1 := andi main_v8 main_v12
  main_v13
-- ==== Kernel.lean ====
abbrev S8x2048x7168 : Shape := ⟨3, ![8, 2048, 7168]⟩
abbrev S2048x7168 : Shape := ⟨2, ![2048, 7168]⟩
abbrev S7168 : Shape := ⟨1, ![7168]⟩
abbrev S1x128x7168 : Shape := ⟨3, ![1, 128, 7168]⟩
abbrev S128x7168 : Shape := ⟨2, ![128, 7168]⟩
abbrev S128 : Shape := ⟨1, ![128]⟩
abbrev S128x1 : Shape := ⟨2, ![128, 1]⟩
abbrev S1x7168 : Shape := ⟨2, ![1, 7168]⟩

abbrev nBuf : Space → Nat
  | .hbm => 5
  | .vmem => 10
  | .smem => 0
  | _ => 0

abbrev bufTy : (tb : Table) → Fin (tcTables nBuf tb) → BufTy
  | .hbm, ⟨0, _⟩ => ⟨S8x2048x7168, .f32⟩
  | .hbm, ⟨1, _⟩ => ⟨S2048x7168, .f32⟩
  | .hbm, ⟨2, _⟩ => ⟨S7168, .f32⟩
  | .hbm, ⟨3, _⟩ => ⟨S2048x7168, .f32⟩
  | .hbm, ⟨4, _⟩ => ⟨S2048x7168, .f32⟩
  | .local _ .vmem, ⟨0, _⟩ => ⟨S1x128x7168, .f32⟩
  | .local _ .vmem, ⟨1, _⟩ => ⟨S1x128x7168, .f32⟩
  | .local _ .vmem, ⟨2, _⟩ => ⟨S128x7168, .f32⟩
  | .local _ .vmem, ⟨3, _⟩ => ⟨S128x7168, .f32⟩
  | .local _ .vmem, ⟨4, _⟩ => ⟨S7168, .f32⟩
  | .local _ .vmem, ⟨5, _⟩ => ⟨S128x7168, .f32⟩
  | .local _ .vmem, ⟨6, _⟩ => ⟨S128x7168, .f32⟩
  | .local _ .vmem, ⟨7, _⟩ => ⟨S128x7168, .f32⟩
  | .local _ .vmem, ⟨8, _⟩ => ⟨S128x7168, .f32⟩
  | .local _ .vmem, ⟨9, _⟩ => ⟨S128x7168, .f32⟩
  | _, _ => ⟨S8x2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x128x7168 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x7168 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x7168 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x7168 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S128x7168_S128x7168_0_0 : ∀ a, (![0, 0] : Fin 2 → Nat) a + S128x7168.size a ≤ S128x7168.size a
  h_S128x7168 : 0 < S128x7168.numel
  shapeCasts_S128x7168_S128x7168 : S128x7168.ShapeCasts S128x7168
  inb_S1x128x7168_S1x128x7168_0_0_0 : ∀ a, (![0, 0, 0] : Fin 3 → Nat) a + S1x128x7168.size a ≤ S1x128x7168.size a
  h_S1x128x7168 : 0 < S1x128x7168.numel
  shapeCasts_S1x128x7168_S128x7168 : S1x128x7168.ShapeCasts S128x7168
  reduces_S128x7168_S128 : S128x7168.Reduces [1] S128
  shapeCasts_S128_S128x1 : S128.ShapeCasts S128x1
  broadcasts_S128x1_S128x7168 : S128x1.Broadcasts S128x7168
  inb_S7168_S7168_0 : ∀ a, (![0] : Fin 1 → Nat) a + S7168.size a ≤ S7168.size a
  h_S7168 : 0 < S7168.numel
  shapeCasts_S7168_S1x7168 : S7168.ShapeCasts S1x7168
  broadcasts_S1x7168_S128x7168 : S1x7168.Broadcasts S128x7168
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x7168.size a ≤ S8x2048x7168.size a
  hwx0_0 : ∀ i : grid0.Coords, EltTy.bits .f32 = 32 ∨ (Rect.block (s := S8x2048x7168) S1x128x7168.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x7168.size a ≤ S2048x7168.size a
  hwx0_1 : ∀ i : grid0.Coords, EltTy.bits .f32 = 32 ∨ (Rect.block (s := S2048x7168) S128x7168.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7168.size a ≤ S7168.size a
  hwx0_2 : ∀ i : grid0.Coords, EltTy.bits .f32 = 32 ∨ (Rect.block (s := S7168) S7168.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x7168.size a ≤ S2048x7168.size a
  hwx0_3 : ∀ i : grid0.Coords, EltTy.bits .f32 = 32 ∨ (Rect.block (s := S2048x7168) S128x7168.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x7168.size a ≤ S2048x7168.size a
  hwx0_4 : ∀ i : grid0.Coords, EltTy.bits .f32 = 32 ∨ (Rect.block (s := S2048x7168) S128x7168.size (cc0_transform_4 i) (hinb0_4 i)).WholeWords (EltTy.packing .f32)

variable [Facts₀]

abbrev win0_0 : Pipeline.Window sig grid0 :=
  Pipeline.Window.ofSpec (Memref.whole main_arg0) S1x128x7168.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x7168.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S7168.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S128x7168.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S128x7168.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x2048x7168 : Shape := ⟨3, ![8, 2048, 7168]⟩
abbrev S2048x7168 : Shape := ⟨2, ![2048, 7168]⟩
abbrev S7168 : Shape := ⟨1, ![7168]⟩
abbrev S_ : Shape := ⟨0, ![]⟩
abbrev S2048 : Shape := ⟨1, ![2048]⟩
abbrev S2048x1 : Shape := ⟨2, ![2048, 1]⟩
abbrev S1x7168 : Shape := ⟨2, ![1, 7168]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x7168, .f32⟩
  | .hbm, ⟨1, _⟩ => ⟨S2048x7168, .f32⟩
  | .hbm, ⟨2, _⟩ => ⟨S7168, .f32⟩
  | .hbm, ⟨3, _⟩ => ⟨S_, .f32⟩
  | .hbm, ⟨4, _⟩ => ⟨S2048x7168, .f32⟩
  | .hbm, ⟨5, _⟩ => ⟨S2048x7168, .f32⟩
  | .hbm, ⟨6, _⟩ => ⟨S2048x7168, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x7168, .f32⟩
  | .hbm, ⟨18, _⟩ => ⟨S2048x7168, .f32⟩
  | .hbm, ⟨19, _⟩ => ⟨S1x7168, .f32⟩
  | .hbm, ⟨20, _⟩ => ⟨S2048x7168, .f32⟩
  | .hbm, ⟨21, _⟩ => ⟨S2048x7168, .f32⟩
  | _, _ => ⟨S8x2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S8x2048x7168_S2048x7168_d0 : S8x2048x7168.ReducesTo [0] S2048x7168
  h_S_ : 0 < S_.numel
  reducesTo_S2048x7168_S2048_d1 : S2048x7168.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x7168_0_1 : S2048x1.BroadcastsInDim S2048x7168 (![0, 1] : Fin 2 → Fin S2048x7168.rank)
  bcast_S7168_S1x7168_1 : S7168.BroadcastsInDim S1x7168 (![1] : Fin 1 → Fin S1x7168.rank)
  bcast_S1x7168_S2048x7168_0_1 : S1x7168.BroadcastsInDim S2048x7168 (![0, 1] : Fin 2 → Fin S2048x7168.rank)

variable [Facts₀]

class Facts : Prop extends Facts₀ where

variable [Facts]
-- ==== Proof.Spec.lean ====
/-
  The specification. The kernel fuses a tensor-parallel all-reduce with a residual add and an RMS normalisation:
  for token `r` and channel `h`,

      resid r h  = (Σ_{k < 8} x[k, r, h]) + residual_in[r, h]
      normed r h = resid r h · rsqrt( (Σ_{h'} resid r h'²) / 7168 + 2⁻⁷ ) · gamma[h]

  Both programs are read, at the ideal instance, as these two functions of the three argument arrays, index by index
  over the extended reals. The two float literals (7168.0 and 2⁻⁷) are kept as the words both programs print; the
  same word stands on both sides and is never evaluated.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The per-rank partial activations `x`: 8 ranks × 2048 tokens × 7168 channels. -/
abbrev SX : Shape := ⟨3, ![8, 2048, 7168]⟩
/-- `residual_in`, and both results: 2048 tokens × 7168 channels. -/
abbrev SR : Shape := ⟨2, ![2048, 7168]⟩
/-- `gamma`: one weight per channel. -/
abbrev SG : Shape := ⟨1, ![7168]⟩

/-- The all-reduced activation plus the incoming residual, at token `r` and channel `h`. -/
def resid (X : SX.Idx → EReal) (R : SR.Idx → EReal) (r : Fin 2048) (h : Fin 7168) : EReal :=
  (∑ k : Fin 8, X (ix3 k r h)) + R (ix2 r h)

/-- The mean of the squares of token `r`'s row: the sum of squares divided by the literal 7168.0. -/
def meanSq (X : SX.Idx → EReal) (R : SR.Idx → EReal) (r : Fin 2048) : EReal :=
  Ideal.div (∑ h : Fin 7168, resid X R r h * resid X R r h) (Ideal.ofBits .f32 0x45E00000#32)

/-- Token `r`'s normalisation factor: the reciprocal square root of the mean square plus the literal 2⁻⁷. -/
def scale (X : SX.Idx → EReal) (R : SR.Idx → EReal) (r : Fin 2048) : EReal :=
  Ideal.rsqrt (meanSq X R r + Ideal.ofBits .f32 0x3C000000#32)

/-- The second result, `residual_out`, as an array. -/
def residArr (X : SX.Idx → EReal) (R : SR.Idx → EReal) : SR.Idx → EReal :=
  fun i => resid X R (i 0) (i 1)

/-- The first result, the normalised and weighted activation, as an array. -/
def normedArr (X : SX.Idx → EReal) (R : SR.Idx → EReal) (Gm : SG.Idx → EReal) : SR.Idx → EReal :=
  fun i => resid X R (i 0) (i 1) * scale X R (i 0) * Gm (ix1 (i 1))

/-- The kernel accumulates the eight ranks in order from a zero block, `(((0 + f 0) + f 1) + …) + f 7`; over the
    extended reals, where addition is commutative and associative, that ordered chain is the plain sum. -/
theorem ordered_sum_eq (f : ℕ → EReal) :
    (0 + ∑ s ∈ Finset.range 7, f s) + f 7 = ∑ k : Fin 8, f k.val := by
  rw [zero_add, ← Finset.sum_range_succ, Finset.sum_range]

/-- What grid point `n` adds into the accumulator at row `p`, channel `h` of its `[128, 7168]` block: the entry of `x` at
    rank `n % 8`, token `128·(n / 8) + p`, channel `h`. Written for every natural `n` — the token index is reduced
    mod 2048, which changes nothing at a grid point (`n < 128`) — so that sums over runs of points need no bounds. -/
def addend (X : SX.Idx → EReal) (n : ℕ) (p : Fin 128) (h : Fin 7168) : EReal :=
  X (ix3 (⟨n % 8, Nat.mod_lt _ (by decide)⟩ : Fin 8)
    (⟨(128 * (n / 8) + p.val) % 2048, Nat.mod_lt _ (by decide)⟩ : Fin 2048) h)

/-- The eight points `8q … 8q + 7` of token block `q` add, in order from zero, the eight ranks' entries at token
    `128q + p`: together the all-reduce's sum over the rank axis. -/
theorem run_sum (X : SX.Idx → EReal) (q : ℕ) (hq : q < 16) (p : Fin 128) (h : Fin 7168) :
    (0 + ∑ s ∈ Finset.range 7, addend X (8 * q + s) p h) + addend X (8 * q + 7) p h
      = ∑ k : Fin 8, X (ix3 k (⟨128 * q + p.val, by have := p.isLt; omega⟩ : Fin 2048) h) := by
  refine (ordered_sum_eq (fun s => addend X (8 * q + s) p h)).trans (Finset.sum_congr rfl fun k _ => ?_)
  have hk := k.isLt
  have hp := p.isLt
  have e1 : (8 * q + k.val) % 8 = k.val := by omega
  have e2 : (128 * ((8 * q + k.val) / 8) + p.val) % 2048 = 128 * q + p.val := by omega
  unfold addend
  refine congrArg X (funext fun a => ?_)
  match a with
  | ⟨0, _⟩ => exact Fin.ext e1
  | ⟨1, _⟩ => exact Fin.ext e2
  | ⟨2, _⟩ => rfl

end Cert.Spec

end
-- ==== Proof.RefIsSpec.lean ====
/-
  The reference computes the specification. Read one host operation at a time, `reference()` is: the sum over the
  rank axis from a zero initial value, plus `residual_in` (its second result); that array squared and summed along the
  channel axis from zero, divided by 7168.0, plus 2⁻⁷, under the reciprocal square root, broadcast back along the
  channels; the product of the three (its first result). A zero initial value drops out of a sum, and the broadcasts
  only re-index, so index by index these are `Spec.resid` and `Spec.resid · Spec.scale · gamma`.
-/
import proofs.«108660_j5875515261130_1_alg».proof.Proof.Gen.ReferenceIdeal.Read
import proofs.«108660_j5875515261130_1_alg».proof.Proof.Spec

noncomputable section

namespace Cert.RefSpec

open Cert.ReferenceIdeal Cert.ReferenceIdeal.Read Cert.Spec
open Idealize.ShloMosaic Idealize.ShloMosaic.ValueIdx
open scoped BigOperators

/-- The reference's second result, `residual_out`: at token `r`, channel `h` it reads `x` at `(k, r, h)` for each rank
    `k`, adds them to a zero, and adds `residual_in` at `(r, h)`. -/
theorem residual_eq (X : S8x2048x7168.Idx → EReal) (R : S2048x7168.Idx → EReal) :
    val_main_v1 (F := Ideal) X R = residArr X R := by
  funext i
  obtain ⟨r, h, rfl⟩ : ∃ (r : Fin 2048) (h : Fin 7168), i = ix2 r h := ⟨i 0, i 1, eq_ix2 i⟩
  rw [val_main_v1_apply, val_main_v0_apply, val_main_cst_apply]
  simp only [Ideal.addf_def, Ideal.ofBits_def, Ideal.ofBits_zero_f32, zero_add]
  show _ = (∑ k : Fin 8, X (ix3 k r h)) + R (ix2 r h)
  refine congrArg (· + R (ix2 r h)) (Finset.sum_congr rfl fun k _ => congrArg X ?_)
  funext a
  match a with
  | ⟨0, _⟩ => rfl
  | ⟨1, _⟩ => rfl
  | ⟨2, _⟩ => rfl

/-- The reference's first result: the residual row scaled by the reciprocal root of its mean square plus 2⁻⁷, times
    the channel's weight. The reduction reads row `r` at every channel `k`; the three broadcasts read their operand
    at the row `r`, at the row `r` again, and at the channel `h`. -/
theorem normed_eq (X : S8x2048x7168.Idx → EReal) (R : S2048x7168.Idx → EReal) (Gm : S7168.Idx → EReal) :
    val_main_v14 (F := Ideal) X R Gm = normedArr X R Gm := by
  funext i
  obtain ⟨r, h, rfl⟩ : ∃ (r : Fin 2048) (h : Fin 7168), i = ix2 r h := ⟨i 0, i 1, eq_ix2 i⟩
  rw [val_main_v14_apply, val_main_v11_apply, val_main_v13_apply, val_main_v12_apply, val_main_v10_apply,
    val_main_v9_apply, val_main_v8_apply, val_main_v6_apply, val_main_v7_apply, val_main_cst_2_apply,
    val_main_v4_apply, val_main_v5_apply, val_main_cst_1_apply, val_main_v3_apply, val_main_cst_0_apply]
  have row : ∀ k : Fin 7168,
      residArr X R (idx_main_v3 (idx_main_v4 (idx_main_v10 (ix2 r h))) k) = resid X R r k := fun _ => rfl
  have chan : idx_main_v12 (idx_main_v13 (ix2 r h)) = ix1 h :=
    funext fun a => match a with | ⟨0, _⟩ => rfl
  simp only [val_main_v2_apply, residual_eq, Ideal.mulf_def, Ideal.addf_def, Ideal.hostDivf_def,
    Ideal.hostUnary_rsqrt_def, Ideal.ofBits_def, Ideal.ofBits_zero_f32, zero_add, row, chan]
  rfl

end Cert.RefSpec

end
-- ==== Proof.LibKeepdims.lean ====
/-
  General readings that a kernel with a row statistic kept as a column (a `keepdims` reduction, broadcast back along
  the reduced axis) needs, and one about a buffer loaded after several whole-buffer stores. None mentions a program.
-/
import Idealize.ShloMosaic.Lib.ValueIdx
import Idealize.ShloMosaic.Lib.Pipeline.Value

noncomputable section

namespace Cert.LibKeepdims

open Idealize.ShloMosaic Idealize.ShloMosaic.ValueIdx

/-- A vector `[a]` cast to a column `[a, 1]` reads, at `(i, u)`, the vector at `i`: both indices have row-major
    position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's row `p`: the unit axis is read at `0`,
    the other at the result's coordinate. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A load of the whole buffer after several stores of which the LAST covered the whole buffer reads that last
    store's payload, whatever the earlier stores were: the last store's rectangle alone covers every index. -/
theorem readCov_last_whole {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

end Cert.LibKeepdims

end
-- ==== Proof.Pieces.lean ====
/-
  What one grid point's body leaves behind, as values. The body has three shapes, by the rank coordinate `k` of the
  point: at `k = 0` it zeroes the accumulator and adds the rank's block; at `0 < k < 7` it adds the rank's block to
  what the point before left; at `k = 7` it does that, adds the block of `residual_in`, copies the accumulator to the
  `residual_out` block and stores the normalised, weighted accumulator to the `normed` block. Every store covers its
  whole buffer, and every load reads a whole buffer, so each buffer ends at the last store's payload, with a load
  after a store reading that store's payload. Stated for any float instance.
-/
import proofs.«108660_j5875515261130_1_alg».proof.Proof.Gen.KernelIdeal.Frame
import proofs.«108660_j5875515261130_1_alg».proof.Proof.LibKeepdims
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem Cert.LibKeepdims

variable {F : FTy → Type} [FloatOps F]

theorem off1 : (![0] : Fin 1 → Nat) = fun _ => 0 := funext fun a => by fin_cases a <;> rfl
theorem off2 : (![0, 0] : Fin 2 → Nat) = fun _ => 0 := funext fun a => by fin_cases a <;> rfl
theorem off3 : (![0, 0, 0] : Fin 3 → Nat) = fun _ => 0 := funext fun a => by fin_cases a <;> rfl

/-- At `k = 0` the accumulator ends at the zero block plus the rank's block. -/
theorem scratch_first (c : Dev nD) (i : grid0.Coords) (arg2 : Memref sig .tc .vmem S1x128x7168 .f32) (harg2 : arg2.IsWhole) (arg3 : Memref sig .tc .vmem S128x7168 .f32) (harg3 : arg3.IsWhole) (arg4 : Memref sig .tc .vmem S7168 .f32) (harg4 : arg4.IsWhole) (arg5 : Memref sig .tc .vmem S128x7168 .f32) (harg5 : arg5.IsWhole) (arg6 : Memref sig .tc .vmem S128x7168 .f32) (harg6 : arg6.IsWhole) (arg7 : Memref sig .tc .vmem S128x7168 .f32) (harg7 : arg7.IsWhole) (hc0 : cond0_0 i) (hc1 : ¬cond0_1 i)
    (x0 : Vec F S1x128x7168 .f32) (x1 : Vec F S128x7168 .f32) (x2 : Vec F S7168 .f32) :
    sout0_A_0 c i arg2 harg2 arg3 harg3 arg4 harg4 arg5 harg5 arg6 harg6 arg7 harg7 hc0 hc1 x0 x1 x2 = k0_pay2 (k0_pay1 (F := F)) x0 := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S128x7168) off2]
  simp only [View.readCov_unit_zero (S := S128x7168) _ off2, View.readAt_eq_ld, harg2.read_unread,
    View.ld_unit_zero (S := S1x128x7168) off3]

/-- At `0 < k < 7` the accumulator ends at what the point before left plus the rank's block. -/
theorem scratch_middle (c : Dev nD) (i : grid0.Coords) (arg2 : Memref sig .tc .vmem S1x128x7168 .f32) (harg2 : arg2.IsWhole) (arg3 : Memref sig .tc .vmem S128x7168 .f32) (harg3 : arg3.IsWhole) (arg4 : Memref sig .tc .vmem S7168 .f32) (harg4 : arg4.IsWhole) (arg5 : Memref sig .tc .vmem S128x7168 .f32) (harg5 : arg5.IsWhole) (arg6 : Memref sig .tc .vmem S128x7168 .f32) (harg6 : arg6.IsWhole) (arg7 : Memref sig .tc .vmem S128x7168 .f32) (harg7 : arg7.IsWhole) (hc0 : ¬cond0_0 i) (hc1 : ¬cond0_1 i)
    (x0 : Vec F S1x128x7168 .f32) (x1 : Vec F S128x7168 .f32) (x2 : Vec F S7168 .f32) (xs0 : Vec F S128x7168 .f32) :
    sout0_B_0 c i arg2 harg2 arg3 harg3 arg4 harg4 arg5 harg5 arg6 harg6 arg7 harg7 hc0 hc1 x0 x1 x2 xs0 = k0_pay2 xs0 x0 := by
  unfold sout0_B_0
  rw [View.read_writes_eq_canon _ _ _ (scover0_B_0 c i arg2 harg2 arg3 harg3 arg4 harg4 arg5 harg5 arg6 harg6 arg7 harg7 hc0 hc1 x0 x1 x2 xs0)]
  unfold kernelRun0_B
  dsimp only
  sl_unfold_words
  rw [View.canon_unit_zero off2]
  simp only [View.readAt_eq_ld, harg7.read_unread, harg2.read_unread, View.ld_unit_zero (S := S128x7168) off2,
    View.ld_unit_zero (S := S1x128x7168) off3]

/-- At `k = 7` the accumulator ends at that sum plus the block of `residual_in`; -/
theorem scratch_last (c : Dev nD) (i : grid0.Coords) (arg2 : Memref sig .tc .vmem S1x128x7168 .f32) (harg2 : arg2.IsWhole) (arg3 : Memref sig .tc .vmem S128x7168 .f32) (harg3 : arg3.IsWhole) (arg4 : Memref sig .tc .vmem S7168 .f32) (harg4 : arg4.IsWhole) (arg5 : Memref sig .tc .vmem S128x7168 .f32) (harg5 : arg5.IsWhole) (arg6 : Memref sig .tc .vmem S128x7168 .f32) (harg6 : arg6.IsWhole) (arg7 : Memref sig .tc .vmem S128x7168 .f32) (harg7 : arg7.IsWhole) (hc0 : ¬cond0_0 i) (hc1 : cond0_1 i)
    (x0 : Vec F S1x128x7168 .f32) (x1 : Vec F S128x7168 .f32) (x2 : Vec F S7168 .f32) (xs0 : Vec F S128x7168 .f32) :
    sout0_C_0 c i arg2 harg2 arg3 harg3 arg4 harg4 arg5 harg5 arg6 harg6 arg7 harg7 hc0 hc1 x0 x1 x2 xs0 = k0_pay3 (k0_pay2 xs0 x0) x1 := by
  unfold sout0_C_0
  rw [View.read_writes_eq_canon _ _ _ (scover0_C_0 c i arg2 harg2 arg3 harg3 arg4 harg4 arg5 harg5 arg6 harg6 arg7 harg7 hc0 hc1 x0 x1 x2 xs0)]
  unfold kernelRun0_C
  dsimp only
  sl_unfold_words
  rw [View.canon_cons_unit_zero (S := S128x7168) off2]
  simp only [View.readCov_unit_zero (S := S128x7168) _ off2, View.readAt_eq_ld, harg7.read_unread, harg2.read_unread,
    harg3.read_unread, View.ld_unit_zero (S := S128x7168) off2, View.ld_unit_zero (S := S1x128x7168) off3]

/-- the `residual_out` block is a copy of it; -/
theorem residual_last (c : Dev nD) (i : grid0.Coords) (arg2 : Memref sig .tc .vmem S1x128x7168 .f32) (harg2 : arg2.IsWhole) (arg3 : Memref sig .tc .vmem S128x7168 .f32) (harg3 : arg3.IsWhole) (arg4 : Memref sig .tc .vmem S7168 .f32) (harg4 : arg4.IsWhole) (arg5 : Memref sig .tc .vmem S128x7168 .f32) (harg5 : arg5.IsWhole) (arg6 : Memref sig .tc .vmem S128x7168 .f32) (harg6 : arg6.IsWhole) (arg7 : Memref sig .tc .vmem S128x7168 .f32) (harg7 : arg7.IsWhole) (hc0 : ¬cond0_0 i) (hc1 : cond0_1 i)
    (x0 : Vec F S1x128x7168 .f32) (x1 : Vec F S128x7168 .f32) (x2 : Vec F S7168 .f32) (xs0 : Vec F S128x7168 .f32) :
    out0_C_4 c i arg2 harg2 arg3 harg3 arg4 harg4 arg5 harg5 arg6 harg6 arg7 harg7 hc0 hc1 x0 x1 x2 xs0 = k0_pay3 (k0_pay2 xs0 x0) x1 := by
  unfold out0_C_4
  rw [View.read_writes_eq_canon _ _ _ (cover0_C_4 c i arg2 harg2 arg3 harg3 arg4 harg4 arg5 harg5 arg6 harg6 arg7 harg7 hc0 hc1 x0 x1 x2 xs0)]
  unfold kernelRun0_C
  dsimp only
  sl_unfold_words
  rw [View.canon_unit_zero off2]
  simp only [readCov_last_whole (S := S128x7168) _ off2, View.readCov_unit_zero (S := S128x7168) _ off2,
    View.readAt_eq_ld, harg7.read_unread, harg2.read_unread, harg3.read_unread,
    View.ld_unit_zero (S := S128x7168) off2, View.ld_unit_zero (S := S1x128x7168) off3]

/-- and the `normed` block is the epilogue's arithmetic of it and of the weights. -/
theorem normed_last (c : Dev nD) (i : grid0.Coords) (arg2 : Memref sig .tc .vmem S1x128x7168 .f32) (harg2 : arg2.IsWhole) (arg3 : Memref sig .tc .vmem S128x7168 .f32) (harg3 : arg3.IsWhole) (arg4 : Memref sig .tc .vmem S7168 .f32) (harg4 : arg4.IsWhole) (arg5 : Memref sig .tc .vmem S128x7168 .f32) (harg5 : arg5.IsWhole) (arg6 : Memref sig .tc .vmem S128x7168 .f32) (harg6 : arg6.IsWhole) (arg7 : Memref sig .tc .vmem S128x7168 .f32) (harg7 : arg7.IsWhole) (hc0 : ¬cond0_0 i) (hc1 : cond0_1 i)
    (x0 : Vec F S1x128x7168 .f32) (x1 : Vec F S128x7168 .f32) (x2 : Vec F S7168 .f32) (xs0 : Vec F S128x7168 .f32) :
    out0_C_3 c i arg2 harg2 arg3 harg3 arg4 harg4 arg5 harg5 arg6 harg6 arg7 harg7 hc0 hc1 x0 x1 x2 xs0 = k0_pay4 (k0_pay3 (k0_pay2 xs0 x0) x1) x2 := by
  unfold out0_C_3
  rw [View.read_writes_eq_canon _ _ _ (cover0_C_3 c i arg2 harg2 arg3 harg3 arg4 harg4 arg5 harg5 arg6 harg6 arg7 harg7 hc0 hc1 x0 x1 x2 xs0)]
  unfold kernelRun0_C
  dsimp only
  sl_unfold_words
  rw [View.canon_unit_zero off2]
  simp only [readCov_last_whole (S := S128x7168) _ off2, View.readCov_unit_zero (S := S128x7168) _ off2,
    View.readAt_eq_ld, harg7.read_unread, harg2.read_unread, harg3.read_unread, harg4.read_unread,
    View.ld_unit_zero (S := S128x7168) off2, View.ld_unit_zero (S := S1x128x7168) off3,
    View.ld_unit_zero (S := S7168) off1]

end Cert.KernelIdeal.Pieces

end
-- ==== Proof.Payload.lean ====
/-
  The body's arithmetic read at an index, at the ideal instance: the zero block, one accumulation step, the residual
  add, and the epilogue (mean of squares along the channels, reciprocal square root, the two products). Layout
  operations only re-index: dropping a leading unit axis reads `(0, p, h)`; a `[128]` row statistic cast to a
  `[128, 1]` column and broadcast to `[128, 7168]` reads row `p`; the weights cast to `[1, 7168]` and broadcast down
  the rows read channel `h`. The lane reduction is a plain sum over the 7168 channels of the row.
-/
import proofs.«108660_j5875515261130_1_alg».proof.Proof.Gen.KernelIdeal.Skeleton
import proofs.«108660_j5875515261130_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.TcCoe Idealize.ShloMosaic.ValueIdx Cert.LibKeepdims
open scoped BigOperators

/-- The block the first point of a run stores before accumulating is zero everywhere. -/
theorem zero_apply (i : S128x7168.Idx) : (k0_pay1 (F := Ideal)) i = 0 := by
  unfold k0_pay1
  rw [shapeCast_self]
  exact Ideal.ofBits_zero_f32

/-- One accumulation step: the accumulator plus the rank's `[1, 128, 7168]` block re-laid as `[128, 7168]`. -/
theorem accum_apply (acc : Vec Ideal S128x7168 .f32) (x : Vec Ideal S1x128x7168 .f32) (p : Fin 128) (h : Fin 7168) :
    k0_pay2 acc x (ix2 p h) = acc (ix2 p h) + x (ix3 (0 : Fin 1) p h) := by
  unfold k0_pay2
  rw [shapeCast_self]
  show acc (ix2 p h) + shapeCast S128x7168 x shapeCasts_S1x128x7168_S128x7168 (ix2 p h) = _
  rw [shapeCast_1ab_ab_apply]

/-- The residual add of the last point: the accumulator plus the block of `residual_in`, entry by entry. -/
theorem addResidual_apply (acc r : Vec Ideal S128x7168 .f32) (i : S128x7168.Idx) : k0_pay3 acc r i = acc i + r i := by
  unfold k0_pay3
  rw [shapeCast_self]
  rfl

/-- The lane reduction of a `[128, 7168]` block along its channels is, at row `p`, the sum over the channels. -/
theorem rowSum_apply (w : FVec Ideal S128x7168 .f32) (hφ : FKind.Formats .f32)
    (hacc : (0x00000000#32 : BitVec 32) = FKind.add.neutral .f32 hφ) (p : Fin 128) :
    multiReduction .add [1] S128 w 0x00000000#32 reduces_S128x7168_S128 hφ hacc (ix1 p) = ∑ k : Fin 7168, w (ix2 p k) :=
  (Ideal.multiReduction_add_single w 0x00000000#32 reduces_S128x7168_S128 hφ hacc (ix1 p)).trans
    (Finset.sum_congr rfl fun k _ => congrArg w (funext fun a => match a with | ⟨0, _⟩ => rfl | ⟨1, _⟩ => rfl))

/-- The epilogue's arithmetic at row `p`, channel `h` of a block `v`: the entry, times the reciprocal square root of
    (the row's sum of squares over 7168.0, plus 2⁻⁷), times the channel's weight. The row statistic is a column
    `[128, 1]` broadcast back along the channels; the weights are a row `[1, 7168]` broadcast down the rows. -/
theorem epilogue_apply (v : Vec Ideal S128x7168 .f32) (g : Vec Ideal S7168 .f32) (p : Fin 128) (h : Fin 7168) :
    k0_pay4 v g (ix2 p h)
      = v (ix2 p h) * Ideal.rsqrt (Ideal.div (∑ k : Fin 7168, v (ix2 p k) * v (ix2 p k)) (Ideal.ofBits .f32 0x45E00000#32)
          + Ideal.ofBits .f32 0x3C000000#32) * g (ix1 h) := by
  unfold k0_pay4
  rw [mulf_apply, mulf_apply, broadcastTo_1b_ab_apply, shapeCast_a_1a_apply, broadcastTo_a1_ab_apply]
  show v (ix2 p h) * Ideal.rsqrt (Ideal.div (shapeCast S128x1 _ shapeCasts_S128_S128x1 (ix2 p (0 : Fin 1)))
      (Ideal.ofBits .f32 0x45E00000#32) + Ideal.ofBits .f32 0x3C000000#32) * g (ix1 h) = _
  rw [shapeCast_a_a1_apply]
  exact congrArg (fun s => v (ix2 p h) * Ideal.rsqrt (Ideal.div s (Ideal.ofBits .f32 0x45E00000#32)
    + Ideal.ofBits .f32 0x3C000000#32) * g (ix1 h))
    ((rowSum_apply (mulf v v) _ _ p).trans (Finset.sum_congr rfl fun _ _ => rfl))

end Cert.KernelIdeal.Payload

end
-- ==== Proof.Blocks.lean ====
/-
  Where each staged block sits in its array. Grid point `t` of the 16 × 8 grid is token block `t / 8` at rank `t % 8`.
  The block of `x` it stages is `[1, 128, 7168]` at block index `(t % 8, t / 8, 0)`; the blocks of `residual_in` and of
  both results are `[128, 7168]` at block index `(t / 8, 0)`; the weights are staged whole. An entry of a block at
  local coordinates `y` is the array's entry at `index · size + y` on every axis.
-/
import proofs.«108660_j5875515261130_1_alg».proof.Proof.Gen.KernelIdeal.Frame
import proofs.«108660_j5875515261130_1_alg».proof.Proof.Spec
import Idealize.ShloMosaic.Lib.Pipeline.Value
import Idealize.ShloMosaic.Lib.ValueIdx

noncomputable section

namespace Cert.KernelIdeal.Blocks

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The three argument arrays as the pipeline finds them, at their literal types. -/
abbrev xarr (c : Dev nD) : Vec Ideal S8x2048x7168 .f32 := V m c main_arg0
abbrev rarr (c : Dev nD) : Vec Ideal S2048x7168 .f32 := V m c main_arg1
abbrev garr (c : Dev nD) : Vec Ideal S7168 .f32 := V m c main_arg2

/-- The three input blocks staged at point `t`, at their literal types. -/
abbrev xblk (c : Dev nD) (t : Fin cfg0.N) : Vec Ideal S1x128x7168 .f32 := iblk m c 0 t
abbrev rblk (c : Dev nD) (t : Fin cfg0.N) : Vec Ideal S128x7168 .f32 := iblk m c 1 t
abbrev gblk (c : Dev nD) (t : Fin cfg0.N) : Vec Ideal S7168 .f32 := iblk m c 2 t

/-- The printed index maps in closed form, decided over the 128 grid points. -/
theorem idx_facts : ∀ t : Fin cfg0.N,
    win0_0.index t (0 : Fin 3) = t.val % 8 ∧ win0_0.index t (1 : Fin 3) = t.val / 8 ∧ win0_0.index t (2 : Fin 3) = 0
    ∧ win0_1.index t (0 : Fin 2) = t.val / 8 ∧ win0_1.index t (1 : Fin 2) = 0
    ∧ win0_2.index t (0 : Fin 1) = 0
    ∧ win0_3.index t (0 : Fin 2) = t.val / 8 ∧ win0_3.index t (1 : Fin 2) = 0
    ∧ win0_4.index t (0 : Fin 2) = t.val / 8 ∧ win0_4.index t (1 : Fin 2) = 0 :=
  (by decide +kernel : ∀ t : Fin grid0.N, _)

/-- The block of `x` at point `t`, at `(0, p, h)`: rank `t % 8`, token `128·(t / 8) + p`, channel `h`. -/
theorem xblk_apply (c : Dev nD) (t : Fin cfg0.N) (p : Fin 128) (h : Fin 7168) :
    xblk m c t (ix3 (0 : Fin 1) p h) = Spec.addend (xarr m c) t.val p h := by
  obtain ⟨e0, e1, e2, -⟩ := idx_facts t
  have hN : t.val < 128 := lt_of_lt_of_eq t.isLt N_0
  have hp := p.isLt
  show ((cfg0.win 0).blk t).view.read (Elt Ideal) (V m c main_arg0) (ix3 (0 : Fin 1) p h) = _
  rw [View.read_apply]
  unfold Spec.addend
  refine congrArg (V m c main_arg0) (funext fun a => Fin.ext ?_)
  match a with
  | ⟨0, _⟩ => show win0_0.index t (0 : Fin 3) * 1 + 1 * 0 = t.val % 8; omega
  | ⟨1, _⟩ => show win0_0.index t (1 : Fin 3) * 128 + 1 * p.val = (128 * (t.val / 8) + p.val) % 2048; omega
  | ⟨2, _⟩ => show win0_0.index t (2 : Fin 3) * 7168 + 1 * h.val = h.val; omega

/-- The block of `residual_in` at point `t`, at `(p, h)`: token `128·(t / 8) + p`, channel `h`. -/
theorem rblk_apply (c : Dev nD) (t : Fin cfg0.N) (p : Fin 128) (h : Fin 7168) :
    rblk m c t (ix2 p h)
      = rarr m c (ix2 (⟨128 * (t.val / 8) + p.val, by
          have := p.isLt; have : t.val < 128 := lt_of_lt_of_eq t.isLt N_0; omega⟩ : Fin 2048) h) := by
  obtain ⟨-, -, -, e3, e4, -⟩ := idx_facts t
  show ((cfg0.win 1).blk t).view.read (Elt Ideal) (V m c main_arg1) (ix2 p h) = _
  rw [View.read_apply]
  refine congrArg (V m c main_arg1) (funext fun a => Fin.ext ?_)
  match a with
  | ⟨0, _⟩ => show win0_1.index t (0 : Fin 2) * 128 + 1 * p.val = 128 * (t.val / 8) + p.val; omega
  | ⟨1, _⟩ => show win0_1.index t (1 : Fin 2) * 7168 + 1 * h.val = h.val; omega

/-- The weights are staged whole: the block at `h` is `gamma` at `h`. -/
theorem gblk_apply (c : Dev nD) (t : Fin cfg0.N) (h : Fin 7168) :
    gblk m c t (ix1 h) = garr m c (ix1 h) := by
  obtain ⟨-, -, -, -, -, e5, -⟩ := idx_facts t
  show ((cfg0.win 2).blk t).view.read (Elt Ideal) (V m c main_arg2) (ix1 h) = _
  rw [View.read_apply]
  refine congrArg (V m c main_arg2) (funext fun a => Fin.ext ?_)
  match a with
  | ⟨0, _⟩ => show win0_2.index t (0 : Fin 1) * 7168 + 1 * h.val = h.val; omega

end Cert.KernelIdeal.Blocks

end
-- ==== Proof.Accumulator.lean ====
/-
  The accumulator across a token block's eight points, and what the last point writes. The scratch after point `t` is
  the fold of the per-point step from the reset at the first point of `t`'s run of eight (the generated value leg
  states this). At the first point the step stores `0 + x-block`; at the next six it adds the point's `x`-block to
  what it is given. So after the seventh point of the run, entry `(p, h)` holds zero plus the ordered sum of seven
  ranks' entries at token `128·(t / 8) + p`. The eighth point adds its own rank and the residual block: that is
  `Spec.resid` at that token, which it copies out as `residual_out` and normalises row by row into `normed`.
-/
import proofs.«108660_j5875515261130_1_alg».proof.Proof.Gen.KernelIdeal.Value
import proofs.«108660_j5875515261130_1_alg».proof.Proof.Pieces
import proofs.«108660_j5875515261130_1_alg».proof.Proof.Payload
import proofs.«108660_j5875515261130_1_alg».proof.Proof.Blocks

noncomputable section

namespace Cert.KernelIdeal.Accumulator

open Cert.KernelIdeal Cert.KernelIdeal.Gen Cert.KernelIdeal.Blocks
open Idealize.ShloMosaic Idealize.ShloMosaic.TcCoe Idealize.ShloMosaic.ValueIdx Idealize.SL.Sem
open scoped BigOperators

variable (m : (ℓ : Loc nD τ sig) → Buf (Elt Ideal) ℓ)

/-- The step at the first point of a run: whatever it is given, it leaves zero plus the point's `x`-block. -/
theorem step_first (c : Dev nD) (n : ℕ) (hb : n < cfg0.N) (h0 : n % 8 = 0) (acc : Vec Ideal S128x7168 .f32)
    (p : Fin 128) (h : Fin 7168) :
    Value.scAt0_0 m c n hb acc (ix2 p h) = 0 + Spec.addend (xarr m c) n p h := by
  have h1 : ¬n % 8 = 7 := by omega
  let t : Fin cfg0.N := ⟨n, hb⟩
  unfold Value.scAt0_0
  rw [dif_pos h0, dif_neg h1]
  refine (congrFun (Pieces.scratch_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h))
    (iblk m c 0 t) (iblk m c 1 t) (iblk m c 2 t)) (ix2 p h)).trans ?_
  rw [Payload.accum_apply, Payload.zero_apply]
  exact congrArg (0 + ·) (xblk_apply m c t p h)

/-- The step at a middle point of a run: what it is given plus the point's `x`-block. -/
theorem step_middle (c : Dev nD) (n : ℕ) (hb : n < cfg0.N) (h0 : ¬n % 8 = 0) (h1 : ¬n % 8 = 7)
    (acc : Vec Ideal S128x7168 .f32) (p : Fin 128) (h : Fin 7168) :
    Value.scAt0_0 m c n hb acc (ix2 p h) = acc (ix2 p h) + Spec.addend (xarr m c) n p h := by
  let t : Fin cfg0.N := ⟨n, hb⟩
  unfold Value.scAt0_0
  rw [dif_neg h0, dif_neg h1]
  refine (congrFun (Pieces.scratch_middle c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h))
    (iblk m c 0 t) (iblk m c 1 t) (iblk m c 2 t) acc) (ix2 p h)).trans ?_
  rw [Payload.accum_apply]
  exact congrArg (acc (ix2 p h) + ·) (xblk_apply m c t p h)

/-- The scratch after any point but the last of its run: zero plus the ordered sum of the run's `x`-blocks so far. -/
theorem fold_apply (c : Dev nD) (t : Fin cfg0.N) (hj : t.val % 8 ≤ 6) (p : Fin 128) (h : Fin 7168) :
    (outsAt0 m c t.val t.isLt).2.2 (ix2 p h)
      = 0 + ∑ s ∈ Finset.range (t.val % 8 + 1), Spec.addend (xarr m c) (8 * (t.val / 8) + s) p h := by
  rw [Value.soutsAt0_0_eq m c t]
  exact Pipeline.accAt_add_apply (ι := S128x7168.Idx) (β := EReal)
    (fun n hb => Value.scAt0_0 m c n hb (VS0_0.read (Elt Ideal) VS0_0.junk)) (Value.scAt0_0 m c)
    (fun _ => 0) (fun n i => Spec.addend (xarr m c) n (i 0) (i 1)) (8 * (t.val / 8)) 6
    (fun hb i => by
      obtain ⟨p', h', rfl⟩ : ∃ (p' : Fin 128) (h' : Fin 7168), i = ix2 p' h' := ⟨i 0, i 1, eq_ix2 i⟩
      exact step_first m c _ hb (by omega) _ p' h')
    (fun n hb acc i hlo hhi => by
      obtain ⟨p', h', rfl⟩ : ∃ (p' : Fin 128) (h' : Fin 7168), i = ix2 p' h' := ⟨i 0, i 1, eq_ix2 i⟩
      exact step_middle m c n hb (by omega) (by omega) acc p' h')
    (t.val % 8) hj _ (ix2 p h)

/-- The scratch the point before `t` left, as the last point's body reads it. -/
abbrev before (c : Dev nD) (t : Fin cfg0.N) : Vec Ideal S128x7168 .f32 :=
  (outsAt0 m c (t.val - 1) (Nat.lt_of_le_of_lt (Nat.sub_le _ _) t.isLt)).2.2

/-- The token of row `p` of the block point `t` works on. -/
abbrev token (t : Fin cfg0.N) (p : Fin 128) : Fin 2048 :=
  ⟨128 * (t.val / 8) + p.val, by have := p.isLt; have : t.val < 128 := lt_of_lt_of_eq t.isLt N_0; omega⟩

/-- At the last point of a run the accumulator, with this point's rank and the residual block added, is the
    all-reduced activation plus the residual at the block's tokens. -/
theorem resid_block (c : Dev nD) (t : Fin cfg0.N) (h1 : t.val % 8 = 7) (p : Fin 128) (h : Fin 7168) :
    k0_pay3 (k0_pay2 (before m c t) (xblk m c t)) (rblk m c t) (ix2 p h)
      = Spec.resid (xarr m c) (rarr m c) (token t p) h := by
  have hN : t.val < 128 := lt_of_lt_of_eq t.isLt N_0
  have hlt : t.val - 1 < cfg0.N := Nat.lt_of_le_of_lt (Nat.sub_le _ _) t.isLt
  rw [Payload.addResidual_apply, Payload.accum_apply, xblk_apply, rblk_apply]
  have hfold : before m c t (ix2 p h)
      = 0 + ∑ s ∈ Finset.range ((t.val - 1) % 8 + 1), Spec.addend (xarr m c) (8 * ((t.val - 1) / 8) + s) p h :=
    fold_apply m c ⟨t.val - 1, hlt⟩ (by show (t.val - 1) % 8 ≤ 6; omega) p h
  rw [hfold, show (t.val - 1) % 8 + 1 = 7 from by omega, show (t.val - 1) / 8 = t.val / 8 from by omega]
  rw [show Spec.addend (xarr m c) t.val p h = Spec.addend (xarr m c) (8 * (t.val / 8) + 7) p h from
    congrArg (fun n => Spec.addend (xarr m c) n p h) (by omega)]
  rw [Spec.run_sum (xarr m c) (t.val / 8) (by omega) p h]
  rfl

/-- … and the epilogue normalises it row by row: the `normed` block. -/
theorem normed_block (c : Dev nD) (t : Fin cfg0.N) (h1 : t.val % 8 = 7) (p : Fin 128) (h : Fin 7168) :
    k0_pay4 (k0_pay3 (k0_pay2 (before m c t) (xblk m c t)) (rblk m c t)) (gblk m c t) (ix2 p h)
      = Spec.resid (xarr m c) (rarr m c) (token t p) h * Spec.scale (xarr m c) (rarr m c) (token t p)
          * garr m c (ix1 h) := by
  rw [Payload.epilogue_apply, gblk_apply]
  simp only [resid_block m c t h1]
  rfl

end Cert.KernelIdeal.Accumulator

end
-- ==== Proof.Result.lean ====
/-
  The two result arrays after the run. Each output window is written back only at the last point of a token block's
  run of eight (`t % 8 = 7`), and what is written there is the block `t / 8` of one whole-array function: `Spec.normedArr`
  for the first result, `Spec.residArr` for the second. Token `r` lies in the block written back at point
  `8·(r / 128) + 7`, so the sixteen write-backs cover each array, which therefore ends holding that function.
-/
import proofs.«108660_j5875515261130_1_alg».proof.Proof.Accumulator

noncomputable section

namespace Cert.KernelIdeal.Result

open Cert.KernelIdeal Cert.KernelIdeal.Gen Cert.KernelIdeal.Blocks Cert.KernelIdeal.Accumulator
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- What the last point of a run writes back to `normed` is its block of `Spec.normedArr`. -/
theorem flushed_normed (c : Dev nD) (t : Fin cfg0.N) (hf : (cfg0.win 3).flush t = true) :
    (dats m 0 c).flushed 3 t
      = ((cfg0.win 3).blk t).view.read (Elt Ideal) (Spec.normedArr (xarr m c) (rarr m c) (garr m c)) := by
  have h1 : t.val % 8 = 7 := (flush0_3 t).mp hf
  have h0 : ¬t.val % 8 = 0 := by omega
  obtain ⟨-, -, -, -, -, -, e6, e7, -⟩ := idx_facts t
  rw [Value.flushed3_C m c t h0 h1, Pieces.normed_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1)
    (iblk m c 0 t) (iblk m c 1 t) (iblk m c 2 t) (before m c t)]
  funext j
  obtain ⟨p, h, rfl⟩ : ∃ (p : Fin 128) (h : Fin 7168), j = ix2 p h := ⟨j 0, j 1, eq_ix2 j⟩
  rw [View.read_apply]
  show k0_pay4 (k0_pay3 (k0_pay2 (before m c t) (xblk m c t)) (rblk m c t)) (gblk m c t) (ix2 p h)
    = Spec.normedArr (xarr m c) (rarr m c) (garr m c) (((cfg0.win 3).blk t).view.emb (ix2 p h))
  rw [normed_block m c t h1 p h]
  have e : ((cfg0.win 3).blk t).view.emb (ix2 p h) = ix2 (token t p) h := funext fun a => Fin.ext (by
    match a with
    | ⟨0, _⟩ => show win0_3.index t (0 : Fin 2) * 128 + 1 * p.val = 128 * (t.val / 8) + p.val; omega
    | ⟨1, _⟩ => show win0_3.index t (1 : Fin 2) * 7168 + 1 * h.val = h.val; omega)
  rw [e]
  rfl

/-- What the last point of a run writes back to `residual_out` is its block of `Spec.residArr`. -/
theorem flushed_residual (c : Dev nD) (t : Fin cfg0.N) (hf : (cfg0.win 4).flush t = true) :
    (dats m 0 c).flushed 4 t
      = ((cfg0.win 4).blk t).view.read (Elt Ideal) (Spec.residArr (xarr m c) (rarr m c)) := by
  have h1 : t.val % 8 = 7 := (flush0_4 t).mp hf
  have h0 : ¬t.val % 8 = 0 := by omega
  obtain ⟨-, -, -, -, -, -, -, -, e8, e9⟩ := idx_facts t
  rw [Value.flushed4_C m c t h0 h1, Pieces.residual_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1)
    (iblk m c 0 t) (iblk m c 1 t) (iblk m c 2 t) (before m c t)]
  funext j
  obtain ⟨p, h, rfl⟩ : ∃ (p : Fin 128) (h : Fin 7168), j = ix2 p h := ⟨j 0, j 1, eq_ix2 j⟩
  rw [View.read_apply]
  show k0_pay3 (k0_pay2 (before m c t) (xblk m c t)) (rblk m c t) (ix2 p h)
    = Spec.residArr (xarr m c) (rarr m c) (((cfg0.win 4).blk t).view.emb (ix2 p h))
  rw [resid_block m c t h1 p h]
  have e : ((cfg0.win 4).blk t).view.emb (ix2 p h) = ix2 (token t p) h := funext fun a => Fin.ext (by
    match a with
    | ⟨0, _⟩ => show win0_4.index t (0 : Fin 2) * 128 + 1 * p.val = 128 * (t.val / 8) + p.val; omega
    | ⟨1, _⟩ => show win0_4.index t (1 : Fin 2) * 7168 + 1 * h.val = h.val; omega)
  rw [e]
  rfl

/-- The point that writes back token `r`'s block: the last of block `r / 128`'s run. -/
abbrev lastPoint (i : S2048x7168.Idx) : Fin cfg0.N :=
  ⟨8 * ((i 0).val / 128) + 7, by
    have h0 : (i 0).val < 2048 := (i 0).isLt
    rw [show cfg0.N = 128 from N_0]; omega⟩

/-- Every entry of `normed` lies in the block some write-back covers. -/
theorem cover_normed (i : S2048x7168.Idx) :
    ∃ t : Fin cfg0.N, (cfg0.win 3).flush t = true ∧ i ∈ ((cfg0.win 3).blk t).view.set := by
  have h0 : (i 0).val < 2048 := (i 0).isLt
  have h1 : (i 1).val < 7168 := (i 1).isLt
  obtain ⟨-, -, -, -, -, -, e6, e7, -⟩ := idx_facts (lastPoint i)
  refine ⟨lastPoint i, (flush0_3 _).mpr (by show (8 * ((i 0).val / 128) + 7) % 8 = 7; omega), ?_⟩
  show i ∈ ((View.whole main_v0_0).slice (win0_3.rect (lastPoint i))).set
  rw [View.set_slice_whole, Rect.mem_set_unit]
  intro a
  have ev : (lastPoint i).val = 8 * ((i 0).val / 128) + 7 := rfl
  match a with
  | ⟨0, _⟩ =>
    show win0_3.index (lastPoint i) (0 : Fin 2) * 128 ≤ (i 0).val
      ∧ (i 0).val < win0_3.index (lastPoint i) (0 : Fin 2) * 128 + 128
    omega
  | ⟨1, _⟩ =>
    show win0_3.index (lastPoint i) (1 : Fin 2) * 7168 ≤ (i 1).val
      ∧ (i 1).val < win0_3.index (lastPoint i) (1 : Fin 2) * 7168 + 7168
    omega

/-- Every entry of `residual_out` lies in the block some write-back covers. -/
theorem cover_residual (i : S2048x7168.Idx) :
    ∃ t : Fin cfg0.N, (cfg0.win 4).flush t = true ∧ i ∈ ((cfg0.win 4).blk t).view.set := by
  have h0 : (i 0).val < 2048 := (i 0).isLt
  have h1 : (i 1).val < 7168 := (i 1).isLt
  obtain ⟨-, -, -, -, -, -, -, -, e8, e9⟩ := idx_facts (lastPoint i)
  refine ⟨lastPoint i, (flush0_4 _).mpr (by show (8 * ((i 0).val / 128) + 7) % 8 = 7; omega), ?_⟩
  show i ∈ ((View.whole main_v0_1).slice (win0_4.rect (lastPoint i))).set
  rw [View.set_slice_whole, Rect.mem_set_unit]
  intro a
  have ev : (lastPoint i).val = 8 * ((i 0).val / 128) + 7 := rfl
  match a with
  | ⟨0, _⟩ =>
    show win0_4.index (lastPoint i) (0 : Fin 2) * 128 ≤ (i 0).val
      ∧ (i 0).val < win0_4.index (lastPoint i) (0 : Fin 2) * 128 + 128
    omega
  | ⟨1, _⟩ =>
    show win0_4.index (lastPoint i) (1 : Fin 2) * 7168 ≤ (i 1).val
      ∧ (i 1).val < win0_4.index (lastPoint i) (1 : Fin 2) * 7168 + 7168
    omega

/-- So `normed` ends holding `Spec.normedArr` of the three arguments, -/
theorem final_normed (c : Dev nD) :
    (dats m 0 c).arrAt 3 cfg0.N = Spec.normedArr (xarr m c) (rarr m c) (garr m c) :=
  (dats m 0 c).arrAt_eq_of_cover 3 (Spec.normedArr (xarr m c) (rarr m c) (garr m c))
    (fun t hf => flushed_normed m c t hf) cover_normed

/-- and `residual_out` ends holding `Spec.residArr` of the first two. -/
theorem final_residual (c : Dev nD) :
    (dats m 0 c).arrAt 4 cfg0.N = Spec.residArr (xarr m c) (rarr m c) :=
  (dats m 0 c).arrAt_eq_of_cover 4 (Spec.residArr (xarr m c) (rarr m c))
    (fun t hf => flushed_residual m c t hf) cover_residual

/-- The kernel's run, read: every weakly fair execution ends with the two results at the specification of the
    arguments as launched, and the arguments unchanged. -/
theorem run : θ_run defs (onTc (τ := τ) (main (F := Ideal))) ⟨m, fun _ => 0, ρ⟩ fun r => ∀ c : Dev nD,
      r.2.mem ((c : Thread nD τ).loc main_v0_0)
        = Spec.normedArr (m ((c : Thread nD τ).loc main_arg0)) (m ((c : Thread nD τ).loc main_arg1))
            (m ((c : Thread nD τ).loc main_arg2))
      ∧ r.2.mem ((c : Thread nD τ).loc main_v0_1)
        = Spec.residArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_normed m c), (h c).2.1.trans (final_residual m c), (h c).2.2⟩)
    (Value.run_blocks m ρ)

end Cert.KernelIdeal.Result

end
-- ==== Proof.lean ====
/-
  A fused tensor-parallel all-reduce, residual add and RMS normalisation, against its jnp reference, over the
  extended reals.

  The kernel runs a 16 × 8 grid: token block `i` (128 tokens) at rank `k`. Along `k` it accumulates the eight ranks'
  `[128, 7168]` blocks of `x` into a scratch buffer, from a zero block stored at `k = 0`; at `k = 7` it adds the block
  of `residual_in`, writes the sum out as the `residual_out` block, and writes `sum · rsqrt(mean(sum²) + 2⁻⁷) · gamma`,
  the mean taken along the channels, as the `normed` block. The reference sums `x` over its rank axis in one
  reduction, adds `residual_in`, and normalises the same way.

  Both are the specification of Proof/Spec.lean. The only difference between the two sides is the shape of the
  rank sum: the kernel's ordered chain `(((0 + x₀) + x₁) + …) + x₇` against the reference's `0 + Σₖ xₖ`; addition on
  the extended reals is commutative and associative with unit 0, so they agree at every input and the precondition
  is not used. The divisor 7168.0 and the epsilon 2⁻⁷ are the same words on both sides; division and the reciprocal
  square root are the same functions of the extended reals in the kernel and on the host.

  The three frames are the generated ones (the reference's is its generated run with the results dropped); the
  idealisation rewrote nothing, so `preserves` is trivial; `algebraic` sets the kernel's run (Proof/Result.lean)
  beside the reference's run read as the specification (Proof/RefIsSpec.lean).
-/
import proofs.«108660_j5875515261130_1_alg».proof.Defs
import proofs.«108660_j5875515261130_1_alg».proof.Proof.Gen.Kernel
import proofs.«108660_j5875515261130_1_alg».proof.Proof.Gen.Kernel.Skeleton
import proofs.«108660_j5875515261130_1_alg».proof.Proof.Gen.Kernel.Launch
import proofs.«108660_j5875515261130_1_alg».proof.Proof.Gen.Kernel.Points
import proofs.«108660_j5875515261130_1_alg».proof.Proof.Gen.Kernel.Frame
import proofs.«108660_j5875515261130_1_alg».proof.Proof.Gen.KernelIdeal
import proofs.«108660_j5875515261130_1_alg».proof.Proof.Gen.KernelIdeal.Skeleton
import proofs.«108660_j5875515261130_1_alg».proof.Proof.Gen.KernelIdeal.Launch
import proofs.«108660_j5875515261130_1_alg».proof.Proof.Gen.KernelIdeal.Points
import proofs.«108660_j5875515261130_1_alg».proof.Proof.Gen.KernelIdeal.Frame
import proofs.«108660_j5875515261130_1_alg».proof.Proof.Gen.ReferenceIdeal
import proofs.«108660_j5875515261130_1_alg».proof.Proof.Gen.Pre_finite_inputs
import proofs.«108660_j5875515261130_1_alg».proof.Proof.Gen.KernelIdeal.Value
import proofs.«108660_j5875515261130_1_alg».proof.Proof.Gen.ReferenceIdeal.Run
import proofs.«108660_j5875515261130_1_alg».proof.Proof.Gen.ReferenceIdeal.Read
import proofs.«108660_j5875515261130_1_alg».proof.Proof.RefIsSpec
import proofs.«108660_j5875515261130_1_alg».proof.Proof.Result
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- So does the reference: its run, with what it says of the results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- The idealisation changed no operation of the kernel. -/
theorem preserves : Cert.preserves_Kernel_KernelIdeal := trivial

/-- From memories that agree on `x`, `residual_in` and `gamma`, both programs end with `normed` at
    `Spec.normedArr` and `residual_out` at `Spec.residArr` of those three arrays. -/
theorem algebraic : Cert.algebraic_KernelIdeal_ReferenceIdeal := by
  intro m ρ m' ρ' _ hagree
  refine ⟨fun c => Cert.Spec.normedArr (m ((c.tc : Thread _ Cert.KernelIdeal.τ).loc Cert.KernelIdeal.main_arg0))
      (m ((c.tc : Thread _ Cert.KernelIdeal.τ).loc Cert.KernelIdeal.main_arg1))
      (m ((c.tc : Thread _ Cert.KernelIdeal.τ).loc Cert.KernelIdeal.main_arg2)),
    fun c => Cert.Spec.residArr (m ((c.tc : Thread _ Cert.KernelIdeal.τ).loc Cert.KernelIdeal.main_arg0))
      (m ((c.tc : Thread _ Cert.KernelIdeal.τ).loc Cert.KernelIdeal.main_arg1)),
    Cert.KernelIdeal.Result.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v14_eq, Cert.RefSpec.normed_eq, (hagree c).1, (hagree c).2.1,
      (hagree c).2.2]
  · rw [(h c).2.1, Cert.ReferenceIdeal.Read.val_main_v1_eq, Cert.RefSpec.residual_eq, (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
